-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S800000 32) (main_arg2 : IVec S800000 32) (main_arg3 : FVec F S800000x64 .f32) (main_arg4 : FVec F S192x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg3
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S800000 : Shape := ⟨1, ![800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x128 : Shape := ⟨2, ![1, 128]⟩
abbrev S4000x192 : Shape := ⟨2, ![4000, 192]⟩
abbrev S4000x128 : Shape := ⟨2, ![4000, 128]⟩
abbrev S5000x128 : Shape := ⟨2, ![5000, 128]⟩

abbrev nBuf : Space → Nat
  | .hbm => 32
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000x64, .f32⟩
  | .hbm, ⟨4, _⟩ => ⟨S192x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x192, .f32⟩
  | .hbm, ⟨20, _⟩ => ⟨S192x128, .bf16⟩
  | .hbm, ⟨21, _⟩ => ⟨S128x128, .bf16⟩
  | .hbm, ⟨22, _⟩ => ⟨S128x128, .bf16⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .local _ .vmem, ⟨0, _⟩ => ⟨S4000x192, .f32⟩
  | .local _ .vmem, ⟨1, _⟩ => ⟨S4000x192, .f32⟩
  | .local _ .vmem, ⟨2, _⟩ => ⟨S192x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bitsLt_bf16_f32 : FTy.bits .bf16 < FTy.bits .f32
  shapeCasts_S128_S1x128 : S128.ShapeCasts S1x128
  inb_S4000x192_S4000x192_0_0 : ∀ a, (![0, 0] : Fin 2 → Nat) a + S4000x192.size a ≤ S4000x192.size a
  h_S4000x192 : 0 < S4000x192.numel
  shapeCasts_S4000x192_S4000x192 : S4000x192.ShapeCasts S4000x192
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S4000x192_S192x128_S4000x128_1_0_0_1_n_n_wf : DotDims.WF S4000x192 S192x128 S4000x128 [1] [0] [0] [1] [] []
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x192.size a ≤ S800000x192.size a
  hwx0_0 : ∀ i : grid0.Coords, EltTy.bits .f32 = 32 ∨ (Rect.block (s := S800000x192) S4000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .bf16 = 32 ∨ (Rect.block (s := S192x128) S192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S800000x128.size a
  hwx0_5 : ∀ i : grid0.Coords, EltTy.bits .f32 = 32 ∨ (Rect.block (s := S800000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x192_S192x128_S4000x128_1_0_0_1_n_n : DotDims S4000x192 S192x128 S4000x128 where
  lhsContracting := [1]
  rhsContracting := [0]
  lhsNonContracting := [0]
  rhsNonContracting := [1]
  lhsBatch := []
  rhsBatch := []
  wf := dot_S4000x192_S192x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v7) S4000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000x64, .f32⟩
  | .hbm, ⟨4, _⟩ => ⟨S192x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x192, .f32⟩
  | .hbm, ⟨20, _⟩ => ⟨S800000x128, .f32⟩
  | .hbm, ⟨21, _⟩ => ⟨S1x128, .f32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S800000x128, .f32⟩
  | .hbm, ⟨31, _⟩ => ⟨S800000x128, .f32⟩
  | .hbm, ⟨32, _⟩ => ⟨S800000x128, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v26 : Ref sig .tc := ⟨.hbm, 63, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.MessageSpec.lean ====
/-
  The mathematics of one crystal-graph message-passing block, stated once over the extended reals, index by index.

  For an edge `e` with source-node features concatenated with its own features into a row `xe e` of length 192,
  the message is two dense layers with the activation `silu v = v · σ(v)` (σ the logistic function):
      h  e k = silu (Σ_l xe e l · W1 l k + b1 k)            (k < 128)
      msg e j = silu (Σ_k h e k · W2 k j + b2 j)            (j < 128)
  and for a node `n` with aggregated messages `agg n` the update is
      out n j = silu (x n j + (Σ_k agg n k · W3 k j + b3 j)).
  Each entry of a message depends on ONE row of `xe` only, and each entry of the update on one row of `x` and of
  `agg`: that is why computing them block of rows by block of rows gives the same array.
-/
import Idealize.ShloMosaic.PureOps.Ideal
import Idealize.ShloMosaic.Lib.ValueIdx
import Idealize.ShloMosaic.Lib.ValueIdxRank1

noncomputable section

namespace Cert.MessagePassing

open Idealize.ShloMosaic Idealize.ShloMosaic.ValueIdx

/-- The activation `v · σ(v)`, σ the logistic function `1 / (1 + e^(-v))` with its limits at the infinities. -/
def silu (v : EReal) : EReal := v * Ideal.logistic v

/-- One entry of a dense layer before its activation: the row `x` against the column `w`, plus the bias entry. -/
def dense {K : Nat} (x w : Fin K → EReal) (b : EReal) : EReal := (∑ k, x k * w k) + b

/-- Entry `(e, j)` of the edge messages: two dense layers, each followed by `silu`, of row `e` of the edge inputs. -/
def edgeMsgAt (xe : (⟨2, ![800000, 192]⟩ : Shape).Idx → EReal) (W1 : (⟨2, ![192, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (e : Fin 800000) (j : Fin 128) : EReal :=
  silu (dense (fun k : Fin 128 => silu (dense (fun l : Fin 192 => xe (ix2 e l)) (fun l => W1 (ix2 l k)) (b1 (ix1 k))))
    (fun k => W2 (ix2 k j)) (b2 (ix1 j)))

/-- The edge messages as one array. -/
def edgeMsg (xe : (⟨2, ![800000, 192]⟩ : Shape).Idx → EReal) (W1 : (⟨2, ![192, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![800000, 128]⟩ : Shape).Idx → EReal :=
  fun i => edgeMsgAt xe W1 b1 W2 b2 (i 0) (i 1)

/-- Entry `(n, j)` of the node update: the residual `x n j` plus one dense layer of row `n` of the aggregate, then `silu`. -/
def nodeOutAt (x agg : (⟨2, ![50000, 128]⟩ : Shape).Idx → EReal) (W3 : (⟨2, ![128, 128]⟩ : Shape).Idx → EReal)
    (b3 : (⟨1, ![128]⟩ : Shape).Idx → EReal) (n : Fin 50000) (j : Fin 128) : EReal :=
  silu (x (ix2 n j) + dense (fun k : Fin 128 => agg (ix2 n k)) (fun k => W3 (ix2 k j)) (b3 (ix1 j)))

/-- The node update as one array. -/
def nodeOut (x agg : (⟨2, ![50000, 128]⟩ : Shape).Idx → EReal) (W3 : (⟨2, ![128, 128]⟩ : Shape).Idx → EReal)
    (b3 : (⟨1, ![128]⟩ : Shape).Idx → EReal) : (⟨2, ![50000, 128]⟩ : Shape).Idx → EReal :=
  fun i => nodeOutAt x agg W3 b3 (i 0) (i 1)

theorem edgeMsg_ix2 (xe : (⟨2, ![800000, 192]⟩ : Shape).Idx → EReal) (W1 : (⟨2, ![192, 128]⟩ : Shape).Idx → EReal)
    (b1 : (⟨1, ![128]⟩ : Shape).Idx → EReal) (W2 : (⟨2, ![128, 128]⟩ : Shape).Idx → EReal)
    (b2 : (⟨1, ![128]⟩ : Shape).Idx → EReal) (e : Fin 800000) (j : Fin 128) :
    edgeMsg xe W1 b1 W2 b2 (ix2 e j) = edgeMsgAt xe W1 b1 W2 b2 e j := rfl

theorem nodeOut_ix2 (x agg : (⟨2, ![50000, 128]⟩ : Shape).Idx → EReal) (W3 : (⟨2, ![128, 128]⟩ : Shape).Idx → EReal)
    (b3 : (⟨1, ![128]⟩ : Shape).Idx → EReal) (n : Fin 50000) (j : Fin 128) :
    nodeOut x agg W3 b3 (ix2 n j) = nodeOutAt x agg W3 b3 n j := rfl

/-- The activation spelt with the operations a program prints: `v · (1 / (1 + e^(-v)))`. -/
theorem silu_eq_div (v : EReal) : silu v = v * Ideal.div 1 (1 + Ideal.exp (-v)) := rfl

end Cert.MessagePassing

end
-- ==== Proof.RefValue.lean ====
/-
  The reference program's result, read stage by stage, is the message-passing block of MessageSpec:
  its edge stage is `edgeMsg` of the gathered-and-concatenated edge inputs, and its result is `nodeOut` of the node
  features and the scatter-added messages.

  Each layer is read at an index (e, j): a matrix product is the sum over the contracted coordinate, a bias broadcast
  along the rows reads the bias at the column, and the activation, printed as v · (1 / (1 + e^(-v))) with the f32
  pattern of one for both ones, is `silu v`. The gathered-and-concatenated edge rows and the scatter-added messages
  are left as they are: nothing below depends on how they were made.
-/
import proofs.«166918_j65420941853353_1_alg».proof.Proof.Gen.ReferenceIdeal.Read
import proofs.«166918_j65420941853353_1_alg».proof.Proof.MessageSpec
import Idealize.ShloMosaic.Lib.StackMember
import Idealize.ShloMosaic.Lib.IdealHost

noncomputable section

namespace Cert.ReferenceIdeal.RefValue

open Cert.ReferenceIdeal Cert.ReferenceIdeal.Gen Cert.ReferenceIdeal.Read Cert.MessagePassing
open Idealize.ShloMosaic Idealize.ShloMosaic.TcCoe Idealize.ShloMosaic.ValueIdx

/-! ## The activation as the program prints it -/

/-- `v · (1 / (1 + e^(-v)))`, both ones the f32 pattern `0x3F800000`, is `silu v`. -/
theorem silu_printed (v : EReal) :
    v * Ideal.div (Ideal.ofBits .f32 0x3F800000#32) (Ideal.ofBits .f32 0x3F800000#32 + Ideal.exp (-v)) = silu v := by
  rw [Ideal.ofBits_one_f32]; rfl

/-! ## The first layer: 192 edge inputs to 128 hidden units -/

/-- Before its activation the first layer at `(e, k)` is row `e` of the edge inputs against column `k` of the
    first weight matrix, plus the first bias at `k`. -/
theorem v11_at (x0 : (⟨S50000x128, .f32⟩ : BufTy).Contents (Elt Ideal)) (x2 : (⟨S800000, .i32⟩ : BufTy).Contents (Elt Ideal))
    (x3 : (⟨S800000x64, .f32⟩ : BufTy).Contents (Elt Ideal)) (x4 : (⟨S192x128, .f32⟩ : BufTy).Contents (Elt Ideal))
    (x5 : (⟨S128, .f32⟩ : BufTy).Contents (Elt Ideal)) (e : Fin 800000) (k : Fin 128) :
    val_main_v11 (F := Ideal) x0 x2 x3 x4 x5 (ix2 e k)
      = dense (fun l : Fin 192 => val_main_v7 (F := Ideal) x0 x2 x3 (ix2 e l)) (fun l => x4 (ix2 l k)) (x5 (ix1 k)) := by
  rw [val_main_v11_apply, val_main_v8_apply, val_main_v10_apply, val_main_v9_apply]
  generalize val_main_v7 (F := Ideal) x0 x2 x3 = xe
  have hl : ∀ l : Fin 192, lidx_main_v8 (ix2 e k) l = ix2 e l := fun l => funext fun a => Fin.ext (by
    match a with | ⟨0, _⟩ => rfl | ⟨1, _⟩ => rfl)
  have hr : ∀ l : Fin 192, ridx_main_v8 (ix2 e k) l = ix2 l k := fun l => funext fun a => Fin.ext (by
    match a with | ⟨0, _⟩ => rfl | ⟨1, _⟩ => rfl)
  have hb : idx_main_v9 (idx_main_v10 (ix2 e k)) = ix1 k := funext fun a => Fin.ext (by
    match a with | ⟨0, _⟩ => rfl)
  simp only [hl, hr, hb]
  rfl

/-- The first layer's activation: the printed `1 / (1 + e^(-v))` chain, then the product, is `silu` of the
    value before it, at every index. -/
theorem v12_eq_silu (x0 : (⟨S50000x128, .f32⟩ : BufTy).Contents (Elt Ideal)) (x2 : (⟨S800000, .i32⟩ : BufTy).Contents (Elt Ideal))
    (x3 : (⟨S800000x64, .f32⟩ : BufTy).Contents (Elt Ideal)) (x4 : (⟨S192x128, .f32⟩ : BufTy).Contents (Elt Ideal))
    (x5 : (⟨S128, .f32⟩ : BufTy).Contents (Elt Ideal)) (i : S800000x128.Idx) :
    val_main_v12 (F := Ideal) x0 x2 x3 x4 x5 i = silu (val_main_v11 (F := Ideal) x0 x2 x3 x4 x5 i) := by
  rw [val_main_v12_apply, val_main_call0_v5_apply, val_main_call0_v4_apply, val_main_call0_cst_0_apply,
    val_main_call0_v3_apply, val_main_call0_v2_apply, val_main_call0_cst_apply, val_main_call0_v1_apply,
    val_main_call0_v0_apply]
  exact silu_printed _

/-- The hidden unit `(e, k)`. -/
theorem v12_at (x0 : (⟨S50000x128, .f32⟩ : BufTy).Contents (Elt Ideal)) (x2 : (⟨S800000, .i32⟩ : BufTy).Contents (Elt Ideal))
    (x3 : (⟨S800000x64, .f32⟩ : BufTy).Contents (Elt Ideal)) (x4 : (⟨S192x128, .f32⟩ : BufTy).Contents (Elt Ideal))
    (x5 : (⟨S128, .f32⟩ : BufTy).Contents (Elt Ideal)) (e : Fin 800000) (k : Fin 128) :
    val_main_v12 (F := Ideal) x0 x2 x3 x4 x5 (ix2 e k)
      = silu (dense (fun l : Fin 192 => val_main_v7 (F := Ideal) x0 x2 x3 (ix2 e l)) (fun l => x4 (ix2 l k))
          (x5 (ix1 k))) := by
  rw [v12_eq_silu, v11_at]

/-! ## The second layer: 128 hidden units to 128 message entries -/

/-- Before its activation the second layer at `(e, j)` is row `e` of the hidden units against column `j` of the
    second weight matrix, plus the second bias at `j`. -/
theorem v16_at (x0 : (⟨S50000x128, .f32⟩ : BufTy).Contents (Elt Ideal)) (x2 : (⟨S800000, .i32⟩ : BufTy).Contents (Elt Ideal))
    (x3 : (⟨S800000x64, .f32⟩ : BufTy).Contents (Elt Ideal)) (x4 : (⟨S192x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (e : Fin 800000) (j : Fin 128) :
    val_main_v16 (F := Ideal) x0 x2 x3 x4 x5 x6 x7 (ix2 e j)
      = dense (fun k : Fin 128 => val_main_v12 (F := Ideal) x0 x2 x3 x4 x5 (ix2 e k)) (fun k => x6 (ix2 k j))
          (x7 (ix1 j)) := by
  rw [val_main_v16_apply, val_main_v13_apply, val_main_v15_apply, val_main_v14_apply]
  generalize val_main_v12 (F := Ideal) x0 x2 x3 x4 x5 = h
  have hl : ∀ k : Fin 128, lidx_main_v13 (ix2 e j) k = ix2 e k := fun k => funext fun a => Fin.ext (by
    match a with | ⟨0, _⟩ => rfl | ⟨1, _⟩ => rfl)
  have hr : ∀ k : Fin 128, ridx_main_v13 (ix2 e j) k = ix2 k j := fun k => funext fun a => Fin.ext (by
    match a with | ⟨0, _⟩ => rfl | ⟨1, _⟩ => rfl)
  have hb : idx_main_v14 (idx_main_v15 (ix2 e j)) = ix1 j := funext fun a => Fin.ext (by
    match a with | ⟨0, _⟩ => rfl)
  simp only [hl, hr, hb]
  rfl

/-- The second layer's activation is `silu` of the value before it, at every index. -/
theorem v17_eq_silu (x0 : (⟨S50000x128, .f32⟩ : BufTy).Contents (Elt Ideal)) (x2 : (⟨S800000, .i32⟩ : BufTy).Contents (Elt Ideal))
    (x3 : (⟨S800000x64, .f32⟩ : BufTy).Contents (Elt Ideal)) (x4 : (⟨S192x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (i : S800000x128.Idx) :
    val_main_v17 (F := Ideal) x0 x2 x3 x4 x5 x6 x7 i = silu (val_main_v16 (F := Ideal) x0 x2 x3 x4 x5 x6 x7 i) := by
  rw [val_main_v17_apply, val_main_call1_v5_apply, val_main_call1_v4_apply, val_main_call1_cst_0_apply,
    val_main_call1_v3_apply, val_main_call1_v2_apply, val_main_call1_cst_apply, val_main_call1_v1_apply,
    val_main_call1_v0_apply]
  exact silu_printed _

/-- The reference's edge stage (two dense layers with `silu`, over all 800000 edges at once) is `edgeMsg` of its own
    edge inputs. -/
theorem messages_eq (x0 : (⟨S50000x128, .f32⟩ : BufTy).Contents (Elt Ideal)) (x2 : (⟨S800000, .i32⟩ : BufTy).Contents (Elt Ideal))
    (x3 : (⟨S800000x64, .f32⟩ : BufTy).Contents (Elt Ideal)) (x4 : (⟨S192x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v17 (F := Ideal) x0 x2 x3 x4 x5 x6 x7 = edgeMsg (val_main_v7 (F := Ideal) x0 x2 x3) x4 x5 x6 x7 := by
  funext i
  obtain ⟨e, j, rfl⟩ : ∃ (e : Fin 800000) (j : Fin 128), i = ix2 e j := ⟨i 0, i 1, eq_ix2 i⟩
  rw [edgeMsg_ix2, v17_eq_silu, v16_at]
  simp only [v12_at]
  rfl

/-! ## The node update: the residual plus one dense layer of the aggregate -/

/-- Before its activation the update at `(n, j)` is the node feature there plus row `n` of the aggregate against
    column `j` of the third weight matrix, plus the third bias at `j`. The program adds the bias last,
    `(x + Σ) + b`; addition of extended reals is associative, so this is `x + (Σ + b)`. -/
theorem v25_at (x0 : (⟨S50000x128, .f32⟩ : BufTy).Contents (Elt Ideal)) (x1 x2 : (⟨S800000, .i32⟩ : BufTy).Contents (Elt Ideal))
    (x3 : (⟨S800000x64, .f32⟩ : BufTy).Contents (Elt Ideal)) (x4 : (⟨S192x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128, .f32⟩ : BufTy).Contents (Elt Ideal)) (n : Fin 50000) (j : Fin 128) :
    val_main_v25 (F := Ideal) x0 x1 x2 x3 x4 x5 x6 x7 x8 x9 (ix2 n j)
      = x0 (ix2 n j) + dense (fun k : Fin 128 => val_main_v20 (F := Ideal) x0 x1 x2 x3 x4 x5 x6 x7 (ix2 n k))
          (fun k => x8 (ix2 k j)) (x9 (ix1 j)) := by
  rw [val_main_v25_apply, val_main_v22_apply, val_main_v21_apply, val_main_v24_apply, val_main_v23_apply]
  generalize val_main_v20 (F := Ideal) x0 x1 x2 x3 x4 x5 x6 x7 = agg
  have hl : ∀ k : Fin 128, lidx_main_v21 (ix2 n j) k = ix2 n k := fun k => funext fun a => Fin.ext (by
    match a with | ⟨0, _⟩ => rfl | ⟨1, _⟩ => rfl)
  have hr : ∀ k : Fin 128, ridx_main_v21 (ix2 n j) k = ix2 k j := fun k => funext fun a => Fin.ext (by
    match a with | ⟨0, _⟩ => rfl | ⟨1, _⟩ => rfl)
  have hb : idx_main_v23 (idx_main_v24 (ix2 n j)) = ix1 j := funext fun a => Fin.ext (by
    match a with | ⟨0, _⟩ => rfl)
  simp only [hl, hr, hb]
  exact add_assoc _ _ _

/-- The update's activation is `silu` of the value before it, at every index. -/
theorem v26_eq_silu (x0 : (⟨S50000x128, .f32⟩ : BufTy).Contents (Elt Ideal)) (x1 x2 : (⟨S800000, .i32⟩ : BufTy).Contents (Elt Ideal))
    (x3 : (⟨S800000x64, .f32⟩ : BufTy).Contents (Elt Ideal)) (x4 : (⟨S192x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128, .f32⟩ : BufTy).Contents (Elt Ideal)) (i : S50000x128.Idx) :
    val_main_v26 (F := Ideal) x0 x1 x2 x3 x4 x5 x6 x7 x8 x9 i
      = silu (val_main_v25 (F := Ideal) x0 x1 x2 x3 x4 x5 x6 x7 x8 x9 i) := by
  rw [val_main_v26_apply, val_main_call2_v5_apply, val_main_call2_v4_apply, val_main_call2_cst_0_apply,
    val_main_call2_v3_apply, val_main_call2_v2_apply, val_main_call2_cst_apply, val_main_call2_v1_apply,
    val_main_call2_v0_apply]
  exact silu_printed _

/-- The reference's result is `nodeOut` of the node features and its scatter-added messages. -/
theorem result_eq (x0 : (⟨S50000x128, .f32⟩ : BufTy).Contents (Elt Ideal)) (x1 x2 : (⟨S800000, .i32⟩ : BufTy).Contents (Elt Ideal))
    (x3 : (⟨S800000x64, .f32⟩ : BufTy).Contents (Elt Ideal)) (x4 : (⟨S192x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) :
    val_main_v26 (F := Ideal) x0 x1 x2 x3 x4 x5 x6 x7 x8 x9
      = nodeOut x0 (val_main_v20 (F := Ideal) x0 x1 x2 x3 x4 x5 x6 x7) x8 x9 := by
  funext i
  obtain ⟨n, j, rfl⟩ : ∃ (n : Fin 50000) (j : Fin 128), i = ix2 n j := ⟨i 0, i 1, eq_ix2 i⟩
  rw [nodeOut_ix2, v26_eq_silu, v25_at]
  rfl

end Cert.ReferenceIdeal.RefValue

end
-- ==== Proof.EdgeValue.lean ====
/-
  Region 0 (the edge MLP, 200 blocks of 4000 edges): whatever the buffers hold when the region is entered, the
  messages array ends at `edgeMsg` of the edge inputs, weights and biases found there. Block `t` holds rows
  4000·t … 4000·t + 3999, and a message row depends on the same row of the inputs only.
-/
import proofs.«166918_j65420941853353_1_alg».proof.Proof.Gen.KernelIdeal.Frame
import proofs.«166918_j65420941853353_1_alg».proof.Proof.MessageSpec
import Idealize.ShloMosaic.Lib.Pipeline.Value
import Idealize.ShloMosaic.Lib.KernelVsHost
import Idealize.ShloMosaic.Lib.StackMember

set_option maxRecDepth 16384

noncomputable section

namespace Cert.KernelIdeal.EdgeValue

open Cert.KernelIdeal Cert.KernelIdeal.Gen Cert.MessagePassing
open Idealize.ShloMosaic Idealize.ShloMosaic.TcCoe Idealize.ShloMosaic.ValueIdx
open Idealize.SL Idealize.SL.Sem
open Idealize.ShloMosaic.Pipeline (Dat Cfg Window)

/-! ## One dense layer of a block, read at an entry -/

/-- A block product into a zero accumulator plus a one-row bias laid along every row, read at row `r`, column `j`:
    the row of the left operand against the column of the right one, plus the bias entry of that column. -/
theorem denseBlock_at {M K : Nat} {φ₁ φ₂ : FTy}
    (d : DotDims ⟨2, ![M, K]⟩ ⟨2, ![K, 128]⟩ ⟨2, ![M, 128]⟩) (hd : d = DotDims.plain M K 128)
    (a : FVec Ideal ⟨2, ![M, K]⟩ φ₁) (w : FVec Ideal ⟨2, ![K, 128]⟩ φ₂) (b : FVec Ideal ⟨2, ![1, 128]⟩ .f32)
    (hb : (⟨2, ![1, 128]⟩ : Shape).Broadcasts ⟨2, ![M, 128]⟩) (r : Fin M) (j : Fin 128) :
    addf (matmul d none a w (constant ⟨2, ![M, 128]⟩ .f32 0x00000000#32)) (broadcastTo ⟨2, ![M, 128]⟩ b hb) (ix2 r j)
      = dense (fun k : Fin K => a (ix2 r k)) (fun k => w (ix2 k j)) (b (ix2 (0 : Fin 1) j)) := by
  subst hd
  rw [matmul_zero_eq_dotGeneral]
  show Host.dotGeneral (DotDims.plain M K 128) none a w (ix2 r j) + broadcastTo ⟨2, ![M, 128]⟩ b hb (ix2 r j) = _
  rw [StackMember.dotGeneral_plain_apply]
  have e := broadcastTo_apply b hb (ix2 r j) (ix2 (0 : Fin 1) j) (by
    intro ax
    match ax with
    | ⟨0, _⟩ => rfl
    | ⟨1, _⟩ =>
      show j.val = if (128 : Nat) = 1 then 0 else j.val
      rw [if_neg (by decide)])
  rw [e]
  rfl

/-- `v · σ(v)` as the body computes it, read at an index. -/
theorem silu_at {S : Shape} (X : FVec Ideal S .f32) (i : S.Idx) : mulf X (logistic X) i = silu (X i) := rfl

/-! ## The body's stored value at an entry of the block -/

/-- Entry `(r, j)` of what the body stores: two dense layers with `silu`, of row `r` of the loaded input block. -/
theorem pay_at (xb : FVec Ideal S4000x192 .f32) (w1 : FVec Ideal S192x128 .bf16) (b1 : FVec Ideal S1x128 .f32)
    (w2 : FVec Ideal S128x128 .bf16) (b2 : FVec Ideal S1x128 .f32) (r : Fin 4000) (j : Fin 128) :
    k0_pay1 (F := Ideal) xb w1 b1 w2 b2 (ix2 r j)
      = silu (dense (fun k : Fin 128 => silu (dense (fun l : Fin 192 => xb (ix2 r l)) (fun l => w1 (ix2 l k)) (b1 (ix2 (0 : Fin 1) k))))
          (fun k => w2 (ix2 k j)) (b2 (ix2 (0 : Fin 1) j))) := by
  unfold k0_pay1
  simp only [shapeCast_self]
  rw [silu_at]
  refine congrArg silu ?_
  refine (denseBlock_at dot_S4000x128_S128x128_S4000x128_1_0_0_1_n_n rfl _ w2 b2 broadcasts_S1x128_S4000x128 r j).trans ?_
  refine congrArg (fun f => dense f (fun k => w2 (ix2 k j)) (b2 (ix2 (0 : Fin 1) j))) (funext fun k => ?_)
  rw [truncf_apply, silu_at]
  refine congrArg silu ?_
  exact denseBlock_at dot_S4000x192_S192x128_S4000x128_1_0_0_1_n_n rfl _ w1 b1 broadcasts_S1x128_S4000x128 r k

/-- The stored entry against the specification: if row `y 0` of the input block is row `i 0` of the edge inputs, the
    loaded weights and biases are the arrays', and the columns agree, the stored entry is the message entry at `i`. -/
theorem pay_block (xe : (⟨2, ![800000, 192]⟩ : Shape).Idx → EReal) (W1 : (⟨2, ![192, 128]⟩ : Shape).Idx → EReal)
    (B1 : (⟨2, ![1, 128]⟩ : Shape).Idx → EReal) (W2 : (⟨2, ![128, 128]⟩ : Shape).Idx → EReal)
    (B2 : (⟨2, ![1, 128]⟩ : Shape).Idx → EReal)
    (xb : FVec Ideal S4000x192 .f32) (w1 : FVec Ideal S192x128 .bf16) (b1 : FVec Ideal S1x128 .f32)
    (w2 : FVec Ideal S128x128 .bf16) (b2 : FVec Ideal S1x128 .f32)
    (y : S4000x128.Idx) (i : S800000x128.Idx) (hi1 : (i 1).val = (y 1).val)
    (hx : ∀ l : Fin 192, xb (ix2 (y 0) l) = xe (ix2 (i 0) l))
    (hw1 : ∀ q, w1 q = W1 q) (hb1 : ∀ q, b1 q = B1 q) (hw2 : ∀ q, w2 q = W2 q) (hb2 : ∀ q, b2 q = B2 q) :
    k0_pay1 (F := Ideal) xb w1 b1 w2 b2 y
      = edgeMsg xe W1 (fun i => B1 (ix2 (0 : Fin 1) (i 0))) W2 (fun i => B2 (ix2 (0 : Fin 1) (i 0))) i := by
  have hj : (y 1 : Fin 128) = i 1 := Fin.ext hi1.symm
  have hy : y = ix2 (y 0 : Fin 4000) (y 1 : Fin 128) := eq_ix2 (n0 := 4000) (n1 := 128) y
  refine (congrArg (k0_pay1 (F := Ideal) xb w1 b1 w2 b2) hy).trans ((pay_at xb w1 b1 w2 b2 (y 0) (y 1)).trans ?_)
  show _ = edgeMsgAt xe W1 (fun i => B1 (ix2 (0 : Fin 1) (i 0))) W2 (fun i => B2 (ix2 (0 : Fin 1) (i 0))) (i 0) (i 1)
  unfold edgeMsgAt
  simp only [hx, hw1, hb1, hw2, hb2, hj]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the edge inputs and the messages move one block of rows per point, the
    weights and biases stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the messages of the arrays the region found. -/
theorem flushed_eq (c : Dev nD) (t : Fin cfg0.N) :
    (dat0 (F := Ideal) V c).flushed 5 t
      = ((cfg0.win 5).blk t).view.read (Elt Ideal) (edgeMsg (V c main_v7) (V c main_v8) (fun i => V c main_v11 (ix2 (0 : Fin 1) (i 0))) (V c main_v9)
          (fun i => V c main_v12 (ix2 (0 : Fin 1) (i 0)))) := by
  show (cfg0.win 5).cut (grid0.coords t) ((dat0 V c).after 5 t) = _
  rw [after0_5]
  unfold out0_5
  rw [View.canon_unit_zero hz]
  simp only [View.ld_unit_zero (S := S4000x192) hz, View.ld_unit_zero (S := S192x128) hz, View.ld_unit_zero (S := S1x128) hz, View.ld_unit_zero (S := S128x128) hz]
  obtain ⟨e00, e01, e10, e11, e20, e21, e30, e31, e40, e41, e50, e51⟩ := idx_facts t
  funext y
  have hy0 : (y 0).val < 4000 := (y 0).isLt
  have hy1 : (y 1).val < 128 := (y 1).isLt
  refine pay_block (V c main_v7) (V c main_v8) (V c main_v11) (V c main_v9) (V c main_v12)
    (iblk0 V c 0 t) (iblk0 V c 1 t) (iblk0 V c 2 t) (iblk0 V c 3 t) (iblk0 V c 4 t)
    ((win0 5).xinj (grid0.coords t) y) (((cfg0.win 5).blk t).view.emb y) ?_ ?_ ?_ ?_ ?_ ?_
  · show win0_5.index t (1 : Fin 2) * 128 + 1 * (y 1).val = (y 1).val
    omega
  · intro l
    show V c main_v7 (((cfg0.win 0).blk t).view.emb _) = V c main_v7 _
    refine congrArg (V c main_v7) (funext fun a => Fin.ext ?_)
    match a with
    | ⟨0, _⟩ => show win0_0.index t (0 : Fin 2) * 4000 + 1 * (y 0).val = win0_5.index t (0 : Fin 2) * 4000 + 1 * (y 0).val; omega
    | ⟨1, _⟩ => show win0_0.index t (1 : Fin 2) * 192 + 1 * l.val = l.val; omega
  · intro q
    show V c main_v8 (((cfg0.win 1).blk t).view.emb q) = V c main_v8 q
    refine congrArg (V c main_v8) (funext fun a => Fin.ext ?_)
    match a with
    | ⟨0, _⟩ => show win0_1.index t (0 : Fin 2) * 192 + 1 * (q 0).val = (q 0).val; omega
    | ⟨1, _⟩ => show win0_1.index t (1 : Fin 2) * 128 + 1 * (q 1).val = (q 1).val; omega
  · intro q
    show V c main_v11 (((cfg0.win 2).blk t).view.emb q) = V c main_v11 q
    refine congrArg (V c main_v11) (funext fun a => Fin.ext ?_)
    match a with
    | ⟨0, _⟩ => show win0_2.index t (0 : Fin 2) * 1 + 1 * (q 0).val = (q 0).val; omega
    | ⟨1, _⟩ => show win0_2.index t (1 : Fin 2) * 128 + 1 * (q 1).val = (q 1).val; omega
  · intro q
    show V c main_v9 (((cfg0.win 3).blk t).view.emb q) = V c main_v9 q
    refine congrArg (V c main_v9) (funext fun a => Fin.ext ?_)
    match a with
    | ⟨0, _⟩ => show win0_3.index t (0 : Fin 2) * 128 + 1 * (q 0).val = (q 0).val; omega
    | ⟨1, _⟩ => show win0_3.index t (1 : Fin 2) * 128 + 1 * (q 1).val = (q 1).val; omega
  · intro q
    show V c main_v12 (((cfg0.win 4).blk t).view.emb q) = V c main_v12 q
    refine congrArg (V c main_v12) (funext fun a => Fin.ext ?_)
    match a with
    | ⟨0, _⟩ => show win0_4.index t (0 : Fin 2) * 1 + 1 * (q 0).val = (q 0).val; omega
    | ⟨1, _⟩ => show win0_4.index t (1 : Fin 2) * 128 + 1 * (q 1).val = (q 1).val; omega

/-- An index of the messages array is in point `t`'s block iff each coordinate is in the block's range on its axis. -/
theorem mem_blk (t : Fin cfg0.N) (i : S800000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v14).slice (win0_5.rect t)).set ↔ _
  rw [View.set_slice_whole, Rect.mem_set_unit]
  exact Iff.rfl

/-- Every index is in some point's block: row `r` is in block `r / 4000`. -/
theorem cover (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have ht : (i 0).val / 4000 < 200 := by omega
  obtain ⟨-, -, -, -, -, -, -, -, -, -, e50, e51⟩ := idx_facts (⟨(i 0).val / 4000, ht⟩ : Fin cfg0.N)
  refine ⟨⟨(i 0).val / 4000, ht⟩, flush0_5 _, ?_⟩
  rw [mem_blk]
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win0_5.index ⟨(i 0).val / 4000, ht⟩ (1 : Fin 2) * 128 ≤ (i 1).val ∧ (i 1).val < win0_5.index ⟨(i 0).val / 4000, ht⟩ (1 : Fin 2) * 128 + 128
    rw [e51]; omega

/-- The messages array after region 0. -/
theorem final (c : Dev nD) :
    (dat0 (F := Ideal) V c).arrAt 5 cfg0.N
      = edgeMsg (V c main_v7) (V c main_v8) (fun i => V c main_v11 (ix2 (0 : Fin 1) (i 0))) (V c main_v9)
          (fun i => V c main_v12 (ix2 (0 : Fin 1) (i 0))) :=
  (dat0 (F := Ideal) V c).arrAt_eq_of_cover 5 _ (fun t _ => flushed_eq V c t) cover

end Cert.KernelIdeal.EdgeValue

end
-- ==== Proof.NodeValue.lean ====
/-
  Region 1 (the node update, 10 blocks of 5000 nodes): whatever the buffers hold when the region is entered, the
  result array ends at `nodeOut` of the node features, the aggregate, the weight and the bias found there.
-/
import proofs.«166918_j65420941853353_1_alg».proof.Proof.Gen.KernelIdeal.Frame
import proofs.«166918_j65420941853353_1_alg».proof.Proof.MessageSpec
import Idealize.ShloMosaic.Lib.Pipeline.Value
import Idealize.ShloMosaic.Lib.StackMember

set_option maxRecDepth 16384

noncomputable section

namespace Cert.KernelIdeal.NodeValue

open Cert.KernelIdeal Cert.KernelIdeal.Gen Cert.MessagePassing
open Idealize.ShloMosaic Idealize.ShloMosaic.TcCoe Idealize.ShloMosaic.ValueIdx
open Idealize.SL Idealize.SL.Sem
open Idealize.ShloMosaic.Pipeline (Dat Cfg Window)

/-! ## One entry of a block's update -/

/-- The bias row laid down the 5000 rows of a block reads, in row `r` and column `j`, the row's entry `j`. -/
theorem bias_apply (b : FVec Ideal S1x128 .f32) (r : Fin 5000) (j : Fin 128) :
    broadcastTo S5000x128 b broadcasts_S1x128_S5000x128 (ix2 r j) = b (ix2 (0 : Fin 1) j) := by
  refine broadcastTo_apply b broadcasts_S1x128_S5000x128 (ix2 r j) (ix2 (0 : Fin 1) j) ?_
  intro a
  match a with
  | ⟨0, _⟩ => rfl
  | ⟨1, _⟩ => rfl

/-- The product of a block of 5000 rows with the 128 × 128 weight, accumulated from zero, reads in row `r` and
    column `j` the sum over `k` of the row's entry `k` times the weight's entry `(k, j)`. -/
theorem product_apply (a : FVec Ideal S5000x128 .bf16) (w : FVec Ideal S128x128 .bf16) (r : Fin 5000) (j : Fin 128) :
    matmul dot_S5000x128_S128x128_S5000x128_1_0_0_1_n_n none a w (constant S5000x128 .f32 0x00000000#32) (ix2 r j)
      = ∑ k : Fin 128, a (ix2 r k) * w (ix2 k j) := by
  rw [matmul_zero_eq_dotGeneral]
  show Host.dotGeneral (DotDims.plain 5000 128 128) none a w (ix2 r j) = _
  exact StackMember.dotGeneral_plain_apply none a w r j

/-- The value the activation is applied to, at one entry: the residual entry plus the dense layer of the aggregate's
    row (rounding the aggregate to the narrower format changes nothing over the extended reals). -/
theorem preact_apply (ab : FVec Ideal S5000x128 .f32) (w : FVec Ideal S128x128 .bf16) (b : FVec Ideal S1x128 .f32)
    (xb : FVec Ideal S5000x128 .f32) (r : Fin 5000) (j : Fin 128) :
    addf xb (addf (matmul dot_S5000x128_S128x128_S5000x128_1_0_0_1_n_n none (truncf .bf16 ab bitsLt_bf16_f32) w
        (constant S5000x128 .f32 0x00000000#32)) (broadcastTo S5000x128 b broadcasts_S1x128_S5000x128)) (ix2 r j)
      = xb (ix2 r j) + dense (fun k : Fin 128 => ab (ix2 r k)) (fun k => w (ix2 k j)) (b (ix2 (0 : Fin 1) j)) := by
  show xb (ix2 r j) + (matmul dot_S5000x128_S128x128_S5000x128_1_0_0_1_n_n none (truncf .bf16 ab bitsLt_bf16_f32) w
      (constant S5000x128 .f32 0x00000000#32) (ix2 r j) + broadcastTo S5000x128 b broadcasts_S1x128_S5000x128 (ix2 r j)) = _
  rw [product_apply, bias_apply]
  rfl

/-- ONE ENTRY OF A BLOCK'S UPDATE: the residual entry plus the dense layer of the aggregate's row, through `silu`. -/
theorem pay_apply (ab : FVec Ideal S5000x128 .f32) (w : FVec Ideal S128x128 .bf16) (b : FVec Ideal S1x128 .f32)
    (xb : FVec Ideal S5000x128 .f32) (r : Fin 5000) (j : Fin 128) :
    k1_pay1 (F := Ideal) ab w b xb (ix2 r j)
      = silu (xb (ix2 r j) + dense (fun k : Fin 128 => ab (ix2 r k)) (fun k => w (ix2 k j)) (b (ix2 (0 : Fin 1) j))) := by
  unfold k1_pay1
  simp only [shapeCast_self]
  exact congrArg silu (preact_apply ab w b xb r j)

/-- Equal residual entries, rows, columns and bias entries give equal update entries. -/
theorem silu_dense_congr {x x' : EReal} {a a' w w' : Fin 128 → EReal} {b b' : EReal}
    (hx : x = x') (ha : a = a') (hw : w = w') (hb : b = b') :
    silu (x + dense a w b) = silu (x' + dense a' w' b') := by
  rw [hx, ha, hw, hb]

/-- The stored entry against the specification: if row `y 0` of the loaded blocks of the node features and of the
    aggregate is row `i 0` of the arrays, the loaded weight and bias row are the arrays', and the columns agree, the
    stored entry is the node update's entry at `i`. -/
theorem pay_block (x agg : (⟨2, ![50000, 128]⟩ : Shape).Idx → EReal) (W3 : (⟨2, ![128, 128]⟩ : Shape).Idx → EReal)
    (B3 : (⟨2, ![1, 128]⟩ : Shape).Idx → EReal)
    (ab : FVec Ideal S5000x128 .f32) (w : FVec Ideal S128x128 .bf16) (b : FVec Ideal S1x128 .f32)
    (xb : FVec Ideal S5000x128 .f32)
    (y : S5000x128.Idx) (i : S50000x128.Idx) (hi1 : (i 1).val = (y 1).val)
    (hx : ∀ l : Fin 128, xb (ix2 (y 0) l) = x (ix2 (i 0) l))
    (ha : ∀ l : Fin 128, ab (ix2 (y 0) l) = agg (ix2 (i 0) l))
    (hw : ∀ q, w q = W3 q) (hb : ∀ q, b q = B3 q) :
    k1_pay1 (F := Ideal) ab w b xb y = nodeOut x agg W3 (fun i => B3 (ix2 (0 : Fin 1) (i 0))) i := by
  have hj : (y 1 : Fin 128) = i 1 := Fin.ext hi1.symm
  have hy : y = ix2 (y 0 : Fin 5000) (y 1 : Fin 128) := eq_ix2 (n0 := 5000) (n1 := 128) y
  refine (congrArg (k1_pay1 (F := Ideal) ab w b xb) hy).trans ((pay_apply ab w b xb (y 0) (y 1)).trans ?_)
  have h0 : xb (ix2 (y 0 : Fin 5000) (y 1 : Fin 128)) = x (ix2 (i 0 : Fin 50000) (i 1 : Fin 128)) :=
    (hx (y 1)).trans (congrArg (fun q : Fin 128 => x (ix2 (i 0 : Fin 50000) q)) hj)
  have h1 : (fun k : Fin 128 => ab (ix2 (y 0 : Fin 5000) k)) = fun k => agg (ix2 (i 0 : Fin 50000) k) := funext ha
  have h2 : (fun k : Fin 128 => w (ix2 k (y 1 : Fin 128))) = fun k => W3 (ix2 k (i 1 : Fin 128)) :=
    funext fun k => (hw _).trans (congrArg (fun q : Fin 128 => W3 (ix2 k q)) hj)
  have h3 : b (ix2 (0 : Fin 1) (y 1 : Fin 128)) = B3 (ix2 (0 : Fin 1) (i 1 : Fin 128)) :=
    (hb _).trans (congrArg (fun q : Fin 128 => B3 (ix2 (0 : Fin 1) q)) hj)
  exact silu_dense_congr h0 h1 h2 h3

variable (V : (c : Dev nD) → (b : Ref sig .tc) → Buf (Elt Ideal) ((c : Thread nD τ).loc b))

/-! ## From the blocks to the array -/

theorem hz : (![0, 0] : Fin 2 → Nat) = fun _ => 0 := funext fun a => by fin_cases a <;> rfl

/-- The printed index maps over the 10 points: the node features', the aggregate's and the result's block at point `t`
    is block `(t, 0)`; the weight and the bias row are whole, block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the node update of the arrays the region found. -/
theorem flushed_eq (c : Dev nD) (t : Fin cfg1.N) :
    (dat1 (F := Ideal) V c).flushed 4 t
      = ((cfg1.win 4).blk t).view.read (Elt Ideal)
          (nodeOut (V c main_arg0) (V c main_v17) (V c main_v10) (fun i => V c main_v13 (ix2 (0 : Fin 1) (i 0)))) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41⟩ := idx_facts t
  funext y
  have hy0 : (y 0).val < 5000 := (y 0).isLt
  have hy1 : (y 1).val < 128 := (y 1).isLt
  refine pay_block (V c main_arg0) (V c main_v17) (V c main_v10) (V c main_v13)
    (iblk1 V c 1 t) (iblk1 V c 2 t) (iblk1 V c 3 t) (iblk1 V c 0 t)
    ((win1 4).xinj (grid1.coords t) y) (((cfg1.win 4).blk t).view.emb y) ?_ ?_ ?_ ?_ ?_
  · show win1_4.index t (1 : Fin 2) * 128 + 1 * (y 1).val = (y 1).val
    omega
  · intro l
    show V c main_arg0 (((cfg1.win 0).blk t).view.emb _) = V c main_arg0 _
    refine congrArg (V c main_arg0) (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 128 + 1 * l.val = l.val; omega
  · intro l
    show V c main_v17 (((cfg1.win 1).blk t).view.emb _) = V c main_v17 _
    refine congrArg (V c main_v17) (funext fun a => Fin.ext ?_)
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 128 + 1 * l.val = l.val; omega
  · intro q
    show V c main_v10 (((cfg1.win 2).blk t).view.emb q) = V c main_v10 q
    refine congrArg (V c main_v10) (funext fun a => Fin.ext ?_)
    match a with
    | ⟨0, _⟩ => show win1_2.index t (0 : Fin 2) * 128 + 1 * (q 0).val = (q 0).val; omega
    | ⟨1, _⟩ => show win1_2.index t (1 : Fin 2) * 128 + 1 * (q 1).val = (q 1).val; omega
  · intro q
    show V c main_v13 (((cfg1.win 3).blk t).view.emb q) = V c main_v13 q
    refine congrArg (V c main_v13) (funext fun a => Fin.ext ?_)
    match a with
    | ⟨0, _⟩ => show win1_3.index t (0 : Fin 2) * 1 + 1 * (q 0).val = (q 0).val; omega
    | ⟨1, _⟩ => show win1_3.index t (1 : Fin 2) * 128 + 1 * (q 1).val = (q 1).val; omega

/-- An index of the result array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v18).slice (win1_4.rect t)).set ↔ _
  rw [View.set_slice_whole, Rect.mem_set_unit]
  exact Iff.rfl

/-- Every index is in some point's block: row `r` is in block `r / 5000`. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < 10 := by omega
  obtain ⟨-, -, -, -, -, -, -, -, e40, e41⟩ := idx_facts (⟨(i 0).val / 5000, ht⟩ : Fin cfg1.N)
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e41]; omega

/-- The result array after region 1. -/
theorem final (c : Dev nD) :
    (dat1 (F := Ideal) V c).arrAt 4 cfg1.N
      = nodeOut (V c main_arg0) (V c main_v17) (V c main_v10) (fun i => V c main_v13 (ix2 (0 : Fin 1) (i 0))) :=
  (dat1 (F := Ideal) V c).arrAt_eq_of_cover 4 _ (fun t _ => flushed_eq V c t) cover

end Cert.KernelIdeal.NodeValue

end
-- ==== Proof.Stretches.lean ====
/-
  What each region finds in its operand arrays, read back to the launch memory.
  Before region 0 the host gathers the source-node rows, joins them with the edge features, re-formats the two
  weight matrices (the identity on extended reals) and reshapes the two biases to one row. Between the regions it
  scatter-adds region 0's messages into a zero array; region 1 also reads the node features, untouched since launch.
-/
import proofs.«166918_j65420941853353_1_alg».proof.Proof.Gen.KernelIdeal.Frame
import Idealize.ShloMosaic.Lib.Pipeline.Value
import Idealize.ShloMosaic.Lib.ValueIdx
import Idealize.ShloMosaic.Lib.ValueIdxRank1
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The edge inputs as the host lays them out before region 0: each edge's source-node row (negative indices wrapped
    once by the node count, as jnp indexing does) beside the edge's own features. -/
def edgeInputs (x : FVec Ideal S50000x128 .f32) (ej : IVec S800000 32) (ef : FVec Ideal S800000x64 .f32) :
    FVec Ideal S800000x192 .f32 :=
  concatenate S800000x192 1
    [⟨S800000x128, Host.gather gather_S50000x128_S800000x1_S800000x128_1_0_n_n_0_1_1128 x
        (broadcastInDim S800000x1 ![0] bcast_S800000_S800000x1_0
          (select (cmpi .slt ej (broadcastInDim S800000 ![] bcast_S_S800000 (constantI S_ 32 0#32)))
            (addi ej (broadcastInDim S800000 ![] bcast_S_S800000 (constantI S_ 32 50000#32))) ej))⟩,
     ⟨S800000x64, ef⟩] concatenates_S800000x128_S800000x64_S800000x192_d1

/-- The messages scatter-added by destination node into a zero array. -/
def aggregate (ei : IVec S800000 32) (msg : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 ei) msg

/-! ## Two facts used at every operand -/

/-- A buffer that no operation of a stretch writes holds after the stretch what it held before: the premise, operation
    by operation (each operation writes its one result buffer, and that buffer is another one). -/
local macro "no_op_writes" : tactic =>
  `(tactic| (refine List.forall_iff_forall_mem.mp ?_
             simp only [hostOps0, hostOps1, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- A vector of 128 entries recast as one row of 128 entries, read at (0, k), is the vector at k: both positions are
    the k-th in row-major order. -/
theorem oneRow_apply {α : Type} (x : S128.Idx → α) (k : Fin 128) :
    shapeCast S1x128 x shapeCasts_S128_S1x128 (ix2 (0 : Fin 1) k) = x (ix1 k) :=
  shapeCast_apply x shapeCasts_S128_S1x128 (ix2 (0 : Fin 1) k) (ix1 k) (by
    rw [Shape.rowMajor_val_two, Shape.rowMajor_val_one]; show k.val = 0 * 128 + k.val; omega)

/-! ## Region 0's operands -/

theorem entry0_edges (c : Dev nD) :
    V1 m ρ c main_v7 = edgeInputs (m ((c : Thread nD τ).loc main_arg0)) (m ((c : Thread nD τ).loc main_arg2)) (m ((c : Thread nD τ).loc main_arg3)) := by
  show StableHlo.after hostOps0 (W0 m ρ c) (Proc.devRef .tc main_v7) = _
  after_results
  rfl

theorem entry0_W1 (c : Dev nD) : V1 m ρ c main_v8 = m ((c : Thread nD τ).loc main_arg4) := by
  show StableHlo.after hostOps0 (W0 m ρ c) (Proc.devRef .tc main_v8) = _
  after_results
  rfl

theorem entry0_b1 (c : Dev nD) (k : Fin 128) : V1 m ρ c main_v11 (ix2 (0 : Fin 1) k) = m ((c : Thread nD τ).loc main_arg5) (ix1 k) := by
  show StableHlo.after hostOps0 (W0 m ρ c) (Proc.devRef .tc main_v11) (ix2 (0 : Fin 1) k) = _
  after_results
  exact oneRow_apply (W0 m ρ c (Proc.devRef .tc main_arg5)) k

theorem entry0_W2 (c : Dev nD) : V1 m ρ c main_v9 = m ((c : Thread nD τ).loc main_arg6) := by
  show StableHlo.after hostOps0 (W0 m ρ c) (Proc.devRef .tc main_v9) = _
  after_results
  rfl

theorem entry0_b2 (c : Dev nD) (k : Fin 128) : V1 m ρ c main_v12 (ix2 (0 : Fin 1) k) = m ((c : Thread nD τ).loc main_arg7) (ix1 k) := by
  show StableHlo.after hostOps0 (W0 m ρ c) (Proc.devRef .tc main_v12) (ix2 (0 : Fin 1) k) = _
  after_results
  exact oneRow_apply (W0 m ρ c (Proc.devRef .tc main_arg7)) k

/-! ## Region 1's operands -/

/-- Across the second stretch and across region 0, a buffer that neither writes is as the first stretch left it. -/
theorem W3_of_untouched (c : Dev nD) (b : Ref sig .tc) (h1 : ∀ op ∈ (hostOps1 : List (HloOp τ sig (Elt Ideal))), Proc.devRef .tc b ∉ op.writes)
    (hb : ∀ w, Pipeline.arrRef spec0 w ≠ b) :
    W3 m ρ c (Proc.devRef .tc b) = W1 m ρ c (Proc.devRef .tc b) :=
  (StableHlo.after_of_forall_not_mem (b := Proc.devRef .tc b) _ _ h1).trans (W2_of_ne m ρ c b hb)

theorem entry1_x (c : Dev nD) : V3 m ρ c main_arg0 = m ((c : Thread nD τ).loc main_arg0) := by
  refine (W3_of_untouched m ρ c main_arg0 (by no_op_writes) (by decide)).trans ?_
  exact StableHlo.after_of_forall_not_mem (b := Proc.devRef .tc main_arg0) _ _ (by no_op_writes)

theorem entry1_agg (c : Dev nD) :
    V3 m ρ c main_v17 = aggregate (m ((c : Thread nD τ).loc main_arg1)) ((dat0 (F := Ideal) (V1 m ρ) c).arrAt 5 cfg0.N) := by
  have e1 : W2 m ρ c (Proc.devRef .tc main_arg1) = m ((c : Thread nD τ).loc main_arg1) :=
    (W2_of_ne m ρ c main_arg1 (by decide)).trans
      (StableHlo.after_of_forall_not_mem (b := Proc.devRef .tc main_arg1) _ _ (by no_op_writes))
  have e5 : W2 m ρ c (Proc.devRef .tc main_v14) = (dat0 (F := Ideal) (V1 m ρ) c).arrAt 5 cfg0.N := W2_arr m ρ c 5
  show StableHlo.after hostOps1 (W2 m ρ c) (Proc.devRef .tc main_v17) = _
  after_results
  rw [e1, e5]
  rfl

theorem entry1_W3 (c : Dev nD) : V3 m ρ c main_v10 = m ((c : Thread nD τ).loc main_arg8) := by
  refine (W3_of_untouched m ρ c main_v10 (by no_op_writes) (by decide)).trans ?_
  show StableHlo.after hostOps0 (W0 m ρ c) (Proc.devRef .tc main_v10) = _
  after_results
  rfl

theorem entry1_b3 (c : Dev nD) (k : Fin 128) : V3 m ρ c main_v13 (ix2 (0 : Fin 1) k) = m ((c : Thread nD τ).loc main_arg9) (ix1 k) := by
  refine (congrFun (W3_of_untouched m ρ c main_v13 (by no_op_writes) (by decide)) (ix2 (0 : Fin 1) k)).trans ?_
  show StableHlo.after hostOps0 (W0 m ρ c) (Proc.devRef .tc main_v13) (ix2 (0 : Fin 1) k) = _
  after_results
  exact oneRow_apply (W0 m ρ c (Proc.devRef .tc main_arg9)) k

end Cert.KernelIdeal.Stretches

end
-- ==== Proof.lean ====
/-
  The certificate of one crystal-graph message-passing block: a kernel program of two pipelined regions (an edge MLP
  over 200 blocks of 4000 edges, a node update over 10 blocks of 5000 nodes) with the gather of source-node rows and
  the scatter-add by destination node left to the host between them, against the plain array program.

  Over the extended reals both compute, for every node n and column j,
      out n j = silu (x n j + Σ_k agg n k · W3 k j + b3 j),      silu v = v · σ(v),
  where agg is the scatter-add by destination node of the messages
      msg e j = silu (Σ_k silu (Σ_l xe e l · W1 l k + b1 k) · W2 k j + b2 j),
  and xe e is the source node's feature row beside the edge's own features.
  The two programs differ in four ways, none of which changes a value here: the kernel re-formats its matrix operands
  (the identity on extended reals); it computes the messages and the update block of rows by block of rows (each row
  of the result depends on the same row of the inputs only, and the blocks tile the arrays); its activation is one
  logistic operation where the array program spells 1 / (1 + e^(-v)) (one function, with the same limits at the
  infinities); and it adds the bias to the product before adding the residual, where the array program adds the
  residual first (addition of extended reals is associative). The gather and the scatter-add are the same host
  operations of the same operands in both programs, so they are carried as they stand. No finiteness is used.
-/
import proofs.«166918_j65420941853353_1_alg».proof.Defs
import proofs.«166918_j65420941853353_1_alg».proof.Proof.Gen.Kernel
import proofs.«166918_j65420941853353_1_alg».proof.Proof.Gen.Kernel.Skeleton
import proofs.«166918_j65420941853353_1_alg».proof.Proof.Gen.Kernel.Launch
import proofs.«166918_j65420941853353_1_alg».proof.Proof.Gen.Kernel.Points
import proofs.«166918_j65420941853353_1_alg».proof.Proof.Gen.Kernel.Frame
import proofs.«166918_j65420941853353_1_alg».proof.Proof.Gen.KernelIdeal
import proofs.«166918_j65420941853353_1_alg».proof.Proof.Gen.KernelIdeal.Skeleton
import proofs.«166918_j65420941853353_1_alg».proof.Proof.Gen.KernelIdeal.Launch
import proofs.«166918_j65420941853353_1_alg».proof.Proof.Gen.KernelIdeal.Points
import proofs.«166918_j65420941853353_1_alg».proof.Proof.Gen.KernelIdeal.Frame
import proofs.«166918_j65420941853353_1_alg».proof.Proof.Gen.ReferenceIdeal
import proofs.«166918_j65420941853353_1_alg».proof.Proof.Gen.ReferenceIdeal.Run
import proofs.«166918_j65420941853353_1_alg».proof.Proof.Gen.ReferenceIdeal.Read
import proofs.«166918_j65420941853353_1_alg».proof.Proof.Gen.Pre_finite_inputs
import proofs.«166918_j65420941853353_1_alg».proof.Proof.MessageSpec
import proofs.«166918_j65420941853353_1_alg».proof.Proof.RefValue
import proofs.«166918_j65420941853353_1_alg».proof.Proof.EdgeValue
import proofs.«166918_j65420941853353_1_alg».proof.Proof.NodeValue
import proofs.«166918_j65420941853353_1_alg».proof.Proof.Stretches
import proofs.«166918_j65420941853353_1_alg».proof.Proof.ResultRun
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.MessagePassing Cert.KernelIdeal.Stretches

/-! ## The kernel program's result -/

/-- A one-row bias read along its row is the bias vector it was reshaped from. -/
theorem bias_row (b : (⟨2, ![1, 128]⟩ : Shape).Idx → EReal) (v : (⟨1, ![128]⟩ : Shape).Idx → EReal)
    (h : ∀ k : Fin 128, b (ix2 (0 : Fin 1) k) = v (ix1 k)) :
    (fun i : (⟨1, ![128]⟩ : Shape).Idx => b (ix2 (0 : Fin 1) (i 0))) = v :=
  funext fun i => (h (i 0)).trans (congrArg v (eq_ix1 (n := 128) i).symm)

/-- The kernel program's result array, as a function of the launch arrays: the node update of the node features and
    the scatter-added messages of the gathered edge inputs. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v18)
      = nodeOut (m ((c.tc : Thread Cert.KernelIdeal.nD Cert.KernelIdeal.τ).loc Cert.KernelIdeal.main_arg0))
        (aggregate (m ((c.tc : Thread Cert.KernelIdeal.nD Cert.KernelIdeal.τ).loc Cert.KernelIdeal.main_arg1)) (edgeMsg (edgeInputs (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  refine (Cert.KernelIdeal.Gen.W4_arr m ρ c 4).trans ?_
  rw [Cert.KernelIdeal.NodeValue.final (Cert.KernelIdeal.Gen.V3 m ρ) c, entry1_x, entry1_agg, entry1_W3,
    bias_row _ _ (entry1_b3 m ρ c),
    Cert.KernelIdeal.EdgeValue.final (Cert.KernelIdeal.Gen.V1 m ρ) c, entry0_edges, entry0_W1, entry0_W2,
    bias_row _ _ (entry0_b1 m ρ c), bias_row _ _ (entry0_b2 m ρ c)]

/-! ## The array program's result -/

/-- The array program's gather-and-join and its scatter-add are the kernel program's host operations of the same
    operands. -/
theorem aggregate_agree (x0 : (⟨Cert.ReferenceIdeal.S50000x128, .f32⟩ : BufTy).Contents (Elt Ideal))
    (x1 x2 : (⟨Cert.ReferenceIdeal.S800000, .i32⟩ : BufTy).Contents (Elt Ideal))
    (x3 : (⟨Cert.ReferenceIdeal.S800000x64, .f32⟩ : BufTy).Contents (Elt Ideal))
    (x4 : (⟨Cert.ReferenceIdeal.S192x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal)) :
    Cert.ReferenceIdeal.Read.val_main_v20 (F := Ideal) x0 x1 x2 x3 x4 x5 x6 x7
      = aggregate x1 (edgeMsg (edgeInputs x0 x2 x3) x4 x5 x6 x7) := by
  unfold Cert.ReferenceIdeal.Read.val_main_v20
  rw [Cert.ReferenceIdeal.RefValue.messages_eq]
  rfl

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the node update of the scatter-added messages. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => nodeOut (m ((c.tc : Thread Cert.KernelIdeal.nD Cert.KernelIdeal.τ).loc Cert.KernelIdeal.main_arg0))
        (aggregate (m ((c.tc : Thread Cert.KernelIdeal.nD Cert.KernelIdeal.τ).loc Cert.KernelIdeal.main_arg1)) (edgeMsg (edgeInputs (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (kernel_result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v26_eq, Cert.ReferenceIdeal.RefValue.result_eq, aggregate_agree,
      h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
